-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096 .f32) (main_arg4 : FVec F S4096 .f32) (main_arg5 : FVec F S4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S512x1 : Shape := ⟨2, ![512, 1]⟩
abbrev S1024x1024 : Shape := ⟨2, ![1024, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1, .f32⟩
  | .local _ .vmem, ⟨11, _⟩ => ⟨S512x1, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S4096x1 : S4096.ShapeCasts S4096x1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x4096.size a
  hwx0_7 : ∀ i : grid0.Coords, EltTy.bits .f32 = 32 ∨ (Rect.block (s := S4096x4096) S1024x1024.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096, .f32⟩
  | .hbm, ⟨15, _⟩ => ⟨S4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The noisy dense layer as ONE function of its seven argument arrays, and the arithmetic of summing its contraction
  block by block.

  With `w k j = w_mu k j + w_sigma k j · (eps_in k · eps_out j)` the noisy weight and
  `b j = b_mu j + b_sigma j · eps_out j` the noisy bias, entry `(i, j)` of the result is
  `max (Σ_k x i k · w k j + b j) 0`, the sum over all 4096 values of `k`.  A contraction taken 512 indices at a time
  adds, at step `n`, the terms `k = 512 n, …, 512 n + 511` to what the steps before left; starting from `0`, after eight
  steps every term has been added once.  Addition of extended reals is associative with unit `0`, so the
  block-by-block sum and the whole sum are the same number: no finiteness of the entries is needed.

  Arrays are read through total accessors (`0` off the array), so that block offsets are plain arithmetic on
  natural numbers.
-/
import Idealize.ShloMosaic.PureOps.Ideal
import Idealize.ShloMosaic.Lib.ValueIdx
import Mathlib.Algebra.BigOperators.Group.Finset.Basic
import Mathlib.Data.Fintype.BigOperators

noncomputable section

open scoped BigOperators
open Idealize.ShloMosaic Idealize.ShloMosaic.ValueIdx

namespace Cert.NoisyDense

/-- Entry `(i, j)` of a matrix, `0` off the array. -/
def at2 {a b : ℕ} (A : (⟨2, ![a, b]⟩ : Shape).Idx → EReal) (i j : ℕ) : EReal :=
  if h : i < a ∧ j < b then A (ix2 ⟨i, h.1⟩ ⟨j, h.2⟩) else 0

/-- Entry `i` of a vector, `0` off the array. -/
def at1 {a : ℕ} (v : (⟨1, ![a]⟩ : Shape).Idx → EReal) (i : ℕ) : EReal :=
  if h : i < a then v (ix1 ⟨i, h⟩) else 0

/-- Inside the array the accessor is the entry. -/
theorem at2_ix2 {a b : ℕ} (A : (⟨2, ![a, b]⟩ : Shape).Idx → EReal) (p : Fin a) (q : Fin b) :
    at2 A p.val q.val = A (ix2 p q) := by
  unfold at2
  rw [dif_pos ⟨p.isLt, q.isLt⟩]

theorem at1_ix1 {a : ℕ} (v : (⟨1, ![a]⟩ : Shape).Idx → EReal) (p : Fin a) : at1 v p.val = v (ix1 p) := by
  unfold at1
  rw [dif_pos p.isLt]

/-- The accessor at the coordinates of an index is the entry at that index. -/
theorem at2_eq {a b : ℕ} (A : (⟨2, ![a, b]⟩ : Shape).Idx → EReal) (y : (⟨2, ![a, b]⟩ : Shape).Idx) (i j : ℕ)
    (hi : i = (y 0).val) (hj : j = (y 1).val) : at2 A i j = A y := by
  subst hi hj
  rw [at2_ix2 A (y 0) (y 1)]
  exact congrArg A (eq_ix2 y).symm

theorem at1_eq {a : ℕ} (v : (⟨1, ![a]⟩ : Shape).Idx → EReal) (y : (⟨1, ![a]⟩ : Shape).Idx) (i : ℕ)
    (hi : i = (y 0).val) : at1 v i = v y := by
  subst hi
  rw [at1_ix1 v (y 0)]
  exact congrArg v (eq_ix1 y).symm

section
variable (X Wmu Wsig : (⟨2, ![4096, 4096]⟩ : Shape).Idx → EReal)
variable (bmu bsig ein eout : (⟨1, ![4096]⟩ : Shape).Idx → EReal)

/-- The noisy weight `w_mu + w_sigma · (eps_in ⊗ eps_out)` at `(k, j)`. -/
def wgt (k j : ℕ) : EReal := at2 Wmu k j + at2 Wsig k j * (at1 ein k * at1 eout j)

/-- The noisy bias `b_mu + b_sigma · eps_out` at `j`. -/
def bias (j : ℕ) : EReal := at1 bmu j + at1 bsig j * at1 eout j

/-- One term of the contraction at `(i, j)`. -/
def term (i j k : ℕ) : EReal := at2 X i k * wgt Wmu Wsig ein eout k j

/-- The contraction over the first `n` blocks of 512 indices. -/
def part (i j n : ℕ) : EReal := ∑ k ∈ Finset.range (512 * n), term X Wmu Wsig ein eout i j k

theorem part_zero (i j : ℕ) : part X Wmu Wsig ein eout i j 0 = 0 := by
  unfold part
  rw [Nat.mul_zero, Finset.range_zero, Finset.sum_empty]

/-- One more block: the 512 terms that start at `512 n`. -/
theorem part_succ (i j n : ℕ) :
    part X Wmu Wsig ein eout i j (n + 1)
      = part X Wmu Wsig ein eout i j n + ∑ kk : Fin 512, term X Wmu Wsig ein eout i j (512 * n + kk.val) := by
  unfold part
  rw [Nat.mul_succ, Finset.sum_range_add,
    Fin.sum_univ_eq_sum_range (fun x => term X Wmu Wsig ein eout i j (512 * n + x)) 512]

/-- All eight blocks: the whole contraction. -/
theorem part_eight (i j : ℕ) :
    part X Wmu Wsig ein eout i j 8 = ∑ k : Fin 4096, term X Wmu Wsig ein eout i j k.val := by
  unfold part
  rw [Fin.sum_univ_eq_sum_range (fun x => term X Wmu Wsig ein eout i j x) 4096]

/-- The layer's result, entry by entry. -/
def G : (⟨2, ![4096, 4096]⟩ : Shape).Idx → EReal := fun y =>
  max (part X Wmu Wsig ein eout (y 0).val (y 1).val 8 + bias bmu bsig eout (y 1).val) 0

/-- The result at `(i, j)` in the arrays' own entries: the contraction of row `i` of `x` with column `j` of the noisy
    weight, plus the noisy bias at `j`, cut off below at `0`. -/
theorem G_apply (i j : Fin 4096) :
    G X Wmu Wsig bmu bsig ein eout (ix2 i j)
      = max ((∑ k : Fin 4096, X (ix2 i k) * (Wmu (ix2 k j) + Wsig (ix2 k j) * (ein (ix1 k) * eout (ix1 j))))
          + (bmu (ix1 j) + bsig (ix1 j) * eout (ix1 j))) 0 := by
  show max (part X Wmu Wsig ein eout i.val j.val 8 + bias bmu bsig eout j.val) 0 = _
  rw [part_eight]
  unfold bias term wgt
  simp only [at2_ix2, at1_ix1]

end

end Cert.NoisyDense

end
-- ==== Proof.RefSpec.lean ====
/-
  The reference computes `G`.

  Its last stage at entry `(i, j)` is `max (d + b) 0`, where `d` is the contraction of row `i` of `x` with column `j` of
  `w_mu + w_sigma · (eps_in ⊗ eps_out)` — the outer product written as two broadcasts, of a column and of a row, then an
  entrywise product — and `b` is `b_mu + b_sigma · eps_out` at `j`, broadcast down the rows.  Each broadcast read at an
  index is the vector read at one coordinate of that index, so the stage is `G` of the seven arguments entry by entry.
-/
import proofs.«168817_j55422257988117_1_alg».proof.Proof.Gen.ReferenceIdeal.Read
import proofs.«168817_j55422257988117_1_alg».proof.Proof.Spec

noncomputable section

open scoped BigOperators
open Idealize.ShloMosaic Idealize.ShloMosaic.ValueIdx

namespace Cert.ReferenceIdeal.RefSpec

open Cert.ReferenceIdeal Cert.ReferenceIdeal.Read Cert.NoisyDense

/-! The index each stage reads its operand at, at an index given by its coordinates. -/

theorem lidx_eq (p q k : Fin 4096) : lidx_main_v9 (ix2 p q) k = ix2 p k :=
  funext fun a => Fin.ext (by match a with | ⟨0, _⟩ => rfl | ⟨1, _⟩ => rfl)
theorem ridx_eq (p q k : Fin 4096) : ridx_main_v9 (ix2 p q) k = ix2 k q :=
  funext fun a => Fin.ext (by match a with | ⟨0, _⟩ => rfl | ⟨1, _⟩ => rfl)
theorem idx2_eq (k q : Fin 4096) : idx_main_v2 (ix2 k q) = ix2 k 0 :=
  funext fun a => Fin.ext (by match a with | ⟨0, _⟩ => rfl | ⟨1, _⟩ => rfl)
theorem idx0_eq (k : Fin 4096) : idx_main_v0 (ix2 k (0 : Fin 1)) = ix1 k :=
  funext fun a => Fin.ext (by match a with | ⟨0, _⟩ => rfl)
theorem idx3_eq (k q : Fin 4096) : idx_main_v3 (ix2 k q) = ix2 0 q :=
  funext fun a => Fin.ext (by match a with | ⟨0, _⟩ => rfl | ⟨1, _⟩ => rfl)
theorem idx1_eq (q : Fin 4096) : idx_main_v1 (ix2 (0 : Fin 1) q) = ix1 q :=
  funext fun a => Fin.ext (by match a with | ⟨0, _⟩ => rfl)
theorem idx11_eq (p q : Fin 4096) : idx_main_v11 (ix2 p q) = ix2 0 q :=
  funext fun a => Fin.ext (by match a with | ⟨0, _⟩ => rfl | ⟨1, _⟩ => rfl)
theorem idx10_eq (q : Fin 4096) : idx_main_v10 (ix2 (0 : Fin 1) q) = ix1 q :=
  funext fun a => Fin.ext (by match a with | ⟨0, _⟩ => rfl)

/-- The reference's result stage is the layer's function of the seven arguments. -/
theorem stage_eq (x0 x1 x2 : (⟨S4096x4096, .f32⟩ : BufTy).Contents (Elt Ideal))
    (x3 x4 x5 x6 : (⟨S4096, .f32⟩ : BufTy).Contents (Elt Ideal)) :
    val_main_v13 (F := Ideal) x0 x1 x2 x3 x4 x5 x6 = G x0 x1 x2 x3 x4 x5 x6 := by
  funext i
  obtain ⟨p, q, rfl⟩ : ∃ (p q : Fin 4096), i = ix2 p q := ⟨i 0, i 1, eq_ix2 i⟩
  rw [G_apply, val_main_v13_apply, val_main_v12_apply, val_main_v9_apply, val_main_v11_apply, idx11_eq,
    val_main_v10_apply, idx10_eq, val_main_v8_apply, val_main_v7_apply, val_main_call0_v0_apply,
    val_main_call0_cst_apply]
  simp only [lidx_eq, ridx_eq, val_main_v6_apply, val_main_v5_apply, val_main_v4_apply, val_main_v2_apply,
    val_main_v3_apply, idx2_eq, idx3_eq, val_main_v0_apply, val_main_v1_apply, idx0_eq, idx1_eq,
    Ideal.maximumf_def, Ideal.addf_def, Ideal.mulf_def, Ideal.ofBits_def, Ideal.ofBits_zero_f32]

end Cert.ReferenceIdeal.RefSpec

end
-- ==== Proof.Pieces.lean ====
/-
  What one grid step leaves behind, as a term over the body's arithmetic.

  The body keeps a running block `acc` of partial products in a scratch buffer that survives from one grid step to the
  next.  At a step where the contraction index starts (`k = 0`) it first overwrites the scratch with zeros; at every step
  it then replaces the scratch by `acc + x_blk · w_blk` (the payload `k0_pay3` of the blocks it loaded and of the scratch
  it read); at a step where the contraction ends (`k = 7`) it also writes `max (acc' + bias) 0` of the NEW scratch
  `acc'` to the output block (the payload `k0_pay4`).  The three lemmas per buffer below read the stores of each case
  back as these terms; they hold at every float instance.
-/
import proofs.«168817_j55422257988117_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle step (`0 < k < 7`): the scratch holding `acc` ends at `acc + x_blk · w_blk`. -/
theorem scratch_mid (c : Dev nD) (i : grid0.Coords) (a3 : Memref sig .tc .vmem S1024x512 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : ¬cond0_1 i)
    (x0 : Vec F S1024x512 .f32) (x1 : Vec F S512x1024 .f32) (x2 : Vec F S512x1024 .f32) (x3 : Vec F S1x1024 .f32) (x4 : Vec F S1x1024 .f32) (x5 : Vec F S512x1 .f32) (x6 : Vec F S1x1024 .f32) (acc : Vec F S1024x1024 .f32) :
    sout0_B_0 c i a3 h3 a4 h4 a5 h5 a6 h6 a7 h7 a8 h8 a9 h9 a10 h10 a11 h11 hc0 hc1 x0 x1 x2 x3 x4 x5 x6 acc = k0_pay3 x5 x6 x1 x2 x0 acc := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 x5 x6 acc)]
  unfold kernelRun0_B
  dsimp only
  sl_unfold_words
  rw [View.canon_unit_zero hz]
  simp only [View.readAt_eq_ld, h3.read_unread, h4.read_unread, h5.read_unread, h6.read_unread, h7.read_unread, h8.read_unread, h9.read_unread, h10.read_unread, h11.read_unread,
    View.ld_unit_zero (S := S1024x512) hz, View.ld_unit_zero (S := S512x1024) hz, View.ld_unit_zero (S := S1x1024) hz,
    View.ld_unit_zero (S := S512x1) hz, View.ld_unit_zero (S := S1024x1024) hz]

/-- The last step (`k = 7`): the scratch ends at `acc + x_blk · w_blk` as at a middle step, -/
theorem scratch_last (c : Dev nD) (i : grid0.Coords) (a3 : Memref sig .tc .vmem S1024x512 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : cond0_1 i)
    (x0 : Vec F S1024x512 .f32) (x1 : Vec F S512x1024 .f32) (x2 : Vec F S512x1024 .f32) (x3 : Vec F S1x1024 .f32) (x4 : Vec F S1x1024 .f32) (x5 : Vec F S512x1 .f32) (x6 : Vec F S1x1024 .f32) (acc : Vec F S1024x1024 .f32) :
    sout0_C_0 c i a3 h3 a4 h4 a5 h5 a6 h6 a7 h7 a8 h8 a9 h9 a10 h10 a11 h11 hc0 hc1 x0 x1 x2 x3 x4 x5 x6 acc = k0_pay3 x5 x6 x1 x2 x0 acc := by
  unfold sout0_C_0
  rw [View.read_writes_eq_canon _ _ _ (scover0_C_0 c i a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, h11.read_unread,
    View.ld_unit_zero (S := S1024x512) hz, View.ld_unit_zero (S := S512x1024) hz, View.ld_unit_zero (S := S1x1024) hz,
    View.ld_unit_zero (S := S512x1) hz, View.ld_unit_zero (S := S1024x1024) hz]

/-- and the output block at the bias added to that NEW scratch, cut off below at zero. -/
theorem out_last (c : Dev nD) (i : grid0.Coords) (a3 : Memref sig .tc .vmem S1024x512 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : cond0_1 i)
    (x0 : Vec F S1024x512 .f32) (x1 : Vec F S512x1024 .f32) (x2 : Vec F S512x1024 .f32) (x3 : Vec F S1x1024 .f32) (x4 : Vec F S1x1024 .f32) (x5 : Vec F S512x1 .f32) (x6 : Vec F S1x1024 .f32) (acc : Vec F S1024x1024 .f32) :
    out0_C_7 c i a3 h3 a4 h4 a5 h5 a6 h6 a7 h7 a8 h8 a9 h9 a10 h10 a11 h11 hc0 hc1 x0 x1 x2 x3 x4 x5 x6 acc = k0_pay4 x6 x3 x4 (k0_pay3 x5 x6 x1 x2 x0 acc) := by
  unfold out0_C_7
  rw [View.read_writes_eq_canon _ _ _ (cover0_C_7 c i a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz]
  simp only [View.readAt_eq_ld, h3.read_unread, h4.read_unread, h5.read_unread, h6.read_unread, h7.read_unread, h8.read_unread, h9.read_unread, h10.read_unread, h11.read_unread,
    View.ld_unit_zero (S := S1024x512) hz, View.ld_unit_zero (S := S512x1024) hz, View.ld_unit_zero (S := S1x1024) hz,
    View.ld_unit_zero (S := S512x1) hz, View.ld_unit_zero (S := S1024x1024) hz, View.readCov_unit_zero (S := S1024x1024) _ hz]

/-- The first step (`k = 0`): the scratch is zeroed, then ends at `0 + x_blk · w_blk`. -/
theorem scratch_first (c : Dev nD) (i : grid0.Coords) (a3 : Memref sig .tc .vmem S1024x512 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x1024 .f32) (h7 : a7.IsWhole) (a8 : Memref sig .tc .vmem S512x1 .f32) (h8 : a8.IsWhole) (a9 : Memref sig .tc .vmem S1x1024 .f32) (h9 : a9.IsWhole) (a10 : Memref sig .tc .vmem S1024x1024 .f32) (h10 : a10.IsWhole) (a11 : Memref sig .tc .vmem S1024x1024 .f32) (h11 : a11.IsWhole) (hc0 : cond0_0 i) (hc1 : ¬cond0_1 i)
    (x0 : Vec F S1024x512 .f32) (x1 : Vec F S512x1024 .f32) (x2 : Vec F S512x1024 .f32) (x3 : Vec F S1x1024 .f32) (x4 : Vec F S1x1024 .f32) (x5 : Vec F S512x1 .f32) (x6 : Vec F S1x1024 .f32) :
    sout0_A_0 c i a3 h3 a4 h4 a5 h5 a6 h6 a7 h7 a8 h8 a9 h9 a10 h10 a11 h11 hc0 hc1 x0 x1 x2 x3 x4 x5 x6 = k0_pay3 x5 x6 x1 x2 x0 (k0_pay1 (F := F)) := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h7.read_unread, h8.read_unread, h9.read_unread, h10.read_unread, h11.read_unread,
    View.ld_unit_zero (S := S1024x512) hz, View.ld_unit_zero (S := S512x1024) hz, View.ld_unit_zero (S := S1x1024) hz,
    View.ld_unit_zero (S := S512x1) hz, View.ld_unit_zero (S := S1024x1024) hz]

end Cert.KernelIdeal.Pieces

end
-- ==== Proof.Payload.lean ====
/-
  The body's arithmetic at one entry of a block, over the extended reals.

  Read at entry `(p, q)` of the 1024 × 1024 block:
  * the update of the running block is `acc (p, q) + Σ_k x (p, k) · (w_mu (k, q) + w_sigma (k, q) · (eps_in k · eps_out q))`,
    `k` over the 512 contraction indices of the step — the matrix product into a zero accumulator is the plain sum of
    products, and changing the float format of its operands does nothing to an extended real;
  * the epilogue is `max (acc (p, q) + (b_mu q + b_sigma q · eps_out q)) 0`.
  The column `eps_in` is a 512 × 1 block and the rows `eps_out`, `b_mu`, `b_sigma` are 1 × 1024 blocks, broadcast along
  the axis on which they have extent one.
-/
import proofs.«168817_j55422257988117_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen

/-! ## The matrix product of two blocks at an entry -/

theorem lhs_axis0 (i : S1024x1024.Idx) (r : dot_S1024x512_S512x1024_S1024x1024_1_0_0_1_n_n.contr.Idx) :
    (dot_S1024x512_S512x1024_S1024x1024_1_0_0_1_n_n.lhsIdx i r 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_axis1 (i : S1024x1024.Idx) (r : dot_S1024x512_S512x1024_S1024x1024_1_0_0_1_n_n.contr.Idx) :
    (dot_S1024x512_S512x1024_S1024x1024_1_0_0_1_n_n.lhsIdx i r 1).val = (r ⟨0, by decide⟩).val :=
  dot_S1024x512_S512x1024_S1024x1024_1_0_0_1_n_n.lhsIdx_val_of_single rfl i r
theorem rhs_axis0 (i : S1024x1024.Idx) (r : dot_S1024x512_S512x1024_S1024x1024_1_0_0_1_n_n.contr.Idx) :
    (dot_S1024x512_S512x1024_S1024x1024_1_0_0_1_n_n.rhsIdx i r 0).val = (r ⟨0, by decide⟩).val :=
  dot_S1024x512_S512x1024_S1024x1024_1_0_0_1_n_n.rhsIdx_val_of_single rfl i r
theorem rhs_axis1 (i : S1024x1024.Idx) (r : dot_S1024x512_S512x1024_S1024x1024_1_0_0_1_n_n.contr.Idx) :
    (dot_S1024x512_S512x1024_S1024x1024_1_0_0_1_n_n.rhsIdx i r 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Into a zero accumulator the product of a 1024 × 512 block with a 512 × 1024 block is, at `(p, q)`, the sum over
    the 512 shared indices of row `p` times column `q`. -/
theorem matmul_at (l : FVec Ideal S1024x512 .bf16) (r : FVec Ideal S512x1024 .bf16) (p q : Fin 1024) :
    matmul dot_S1024x512_S512x1024_S1024x1024_1_0_0_1_n_n none l r (constant (F := Ideal) S1024x1024 .f32 0x00000000#32) (ix2 p q)
      = ∑ k : Fin 512, l (ix2 p k) * r (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-! ## The broadcasts of a column and of a row -/

/-- A 512 × 1 column spread over 1024 columns: entry `(k, q)` is the column's entry `k`. -/
theorem col_at (e : FVec Ideal S512x1 .f32) (k : Fin 512) (q : Fin 1024) :
    broadcastTo S512x1024 e broadcasts_S512x1_S512x1024 (ix2 k q) = e (ix2 k 0) :=
  broadcastTo_apply e broadcasts_S512x1_S512x1024 (ix2 k q) (ix2 k 0) (fun a => match a with
    | ⟨0, _⟩ => by show k.val = if (512 : Nat) = 1 then 0 else k.val; rw [if_neg (by decide)]
    | ⟨1, _⟩ => by show 0 = if (1 : Nat) = 1 then 0 else q.val; rw [if_pos rfl])

/-- A 1 × 1024 row spread over 512 rows: entry `(k, q)` is the row's entry `q`. -/
theorem row_at (o : FVec Ideal S1x1024 .f32) (k : Fin 512) (q : Fin 1024) :
    broadcastTo S512x1024 o broadcasts_S1x1024_S512x1024 (ix2 k q) = o (ix2 0 q) :=
  broadcastTo_apply o broadcasts_S1x1024_S512x1024 (ix2 k q) (ix2 0 q) (fun a => match a with
    | ⟨0, _⟩ => by show 0 = if (1 : Nat) = 1 then 0 else k.val; rw [if_pos rfl]
    | ⟨1, _⟩ => by show q.val = if (1024 : Nat) = 1 then 0 else q.val; rw [if_neg (by decide)])

/-- A 1 × 1024 row spread over 1024 rows: entry `(p, q)` is the row's entry `q`. -/
theorem row_at' (o : FVec Ideal S1x1024 .f32) (p q : Fin 1024) :
    broadcastTo S1024x1024 o broadcasts_S1x1024_S1024x1024 (ix2 p q) = o (ix2 0 q) :=
  broadcastTo_apply o broadcasts_S1x1024_S1024x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The two payloads at an entry -/

/-- The zero block the first step stores is zero at every entry. -/
theorem pay1_at (y : S1024x1024.Idx) : k0_pay1 (F := Ideal) y = 0 := by
  unfold k0_pay1
  simp only [shapeCast_self]
  show Ideal.ofBits .f32 0x00000000#32 = 0
  exact Ideal.ofBits_zero_f32

/-- The running block's update at `(p, q)`: what it held plus the step's 512 products. -/
theorem pay3_at (e : Vec Ideal S512x1 .f32) (o : Vec Ideal S1x1024 .f32) (wm ws : Vec Ideal S512x1024 .f32)
    (x : Vec Ideal S1024x512 .f32) (acc : Vec Ideal S1024x1024 .f32) (p q : Fin 1024) :
    k0_pay3 (F := Ideal) e o wm ws x acc (ix2 p q)
      = acc (ix2 p q) + ∑ k : Fin 512, x (ix2 p k) * (wm (ix2 k q) + ws (ix2 k q) * (e (ix2 k 0) * o (ix2 0 q))) := by
  unfold k0_pay3 k0_pay2
  simp only [shapeCast_self]
  rw [addf_apply, matmul_at]
  refine congrArg (acc (ix2 p q) + ·) (Finset.sum_congr rfl fun k _ => ?_)
  rw [truncf_apply, truncf_apply, addf_apply, mulf_apply, mulf_apply, col_at, row_at]

/-- The epilogue at `(p, q)`: the running block plus the noisy bias of column `q`, cut off below at zero. -/
theorem pay4_at (o bm bs : Vec Ideal S1x1024 .f32) (acc : Vec Ideal S1024x1024 .f32) (p q : Fin 1024) :
    k0_pay4 (F := Ideal) o bm bs acc (ix2 p q)
      = max (acc (ix2 p q) + (bm (ix2 0 q) + bs (ix2 0 q) * o (ix2 0 q))) 0 := by
  unfold k0_pay4 k0_pay2
  simp only [shapeCast_self]
  rw [maximumf_apply, addf_apply, row_at', addf_apply, mulf_apply, broadcast_apply]
  show max _ (Ideal.ofBits .f32 0x00000000#32) = _
  rw [Ideal.ofBits_zero_f32]

end Cert.KernelIdeal.Pay

end
-- ==== Proof.Blocks.lean ====
/-
  Where the blocks of a grid step sit in the argument arrays.

  The grid has 4 × 4 × 8 steps; step `t` (counted row-major) works on row block `t / 32` and column block `t / 8 % 4`
  of the result, at contraction block `t % 8`.  It is handed the 1024 × 512 block of `x` at
  `(1024 (t / 32), 512 (t % 8))`, the 512 × 1024 blocks of `w_mu` and `w_sigma` at `(512 (t % 8), 1024 (t / 8 % 4))`, the
  512 entries of `eps_in` from `512 (t % 8)` and the 1024 entries of `eps_out`, `b_mu`, `b_sigma` from
  `1024 (t / 8 % 4)` — the four vectors having first been laid out as a 4096 × 1 column or a 1 × 4096 row, which moves no
  entry.
-/
import proofs.«168817_j55422257988117_1_alg».proof.Proof.Gen.KernelIdeal.Frame
import proofs.«168817_j55422257988117_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.NoisyDense

variable (m : (ℓ : Loc nD τ sig) → Buf (Elt Ideal) ℓ)

/-! ## The seven arguments as arrays of extended reals -/

abbrev aX (c : Dev nD) : (⟨2, ![4096, 4096]⟩ : Shape).Idx → EReal := m ((c : Thread nD τ).loc main_arg0)
abbrev aWmu (c : Dev nD) : (⟨2, ![4096, 4096]⟩ : Shape).Idx → EReal := m ((c : Thread nD τ).loc main_arg1)
abbrev aWsig (c : Dev nD) : (⟨2, ![4096, 4096]⟩ : Shape).Idx → EReal := m ((c : Thread nD τ).loc main_arg2)
abbrev aBmu (c : Dev nD) : (⟨1, ![4096]⟩ : Shape).Idx → EReal := m ((c : Thread nD τ).loc main_arg3)
abbrev aBsig (c : Dev nD) : (⟨1, ![4096]⟩ : Shape).Idx → EReal := m ((c : Thread nD τ).loc main_arg4)
abbrev aEin (c : Dev nD) : (⟨1, ![4096]⟩ : Shape).Idx → EReal := m ((c : Thread nD τ).loc main_arg5)
abbrev aEout (c : Dev nD) : (⟨1, ![4096]⟩ : Shape).Idx → EReal := m ((c : Thread nD τ).loc main_arg6)

/-! ## The block indices of every window at every step, decided over the 128 steps -/

theorem idx_facts : ∀ t : Fin cfg0.N,
    (win0_0.index t 0 = t.val / 32 ∧ win0_0.index t 1 = t.val % 8)
    ∧ (win0_1.index t 0 = t.val % 8 ∧ win0_1.index t 1 = t.val / 8 % 4)
    ∧ (win0_2.index t 0 = t.val % 8 ∧ win0_2.index t 1 = t.val / 8 % 4)
    ∧ (win0_3.index t 0 = 0 ∧ win0_3.index t 1 = t.val / 8 % 4)
    ∧ (win0_4.index t 0 = 0 ∧ win0_4.index t 1 = t.val / 8 % 4)
    ∧ (win0_5.index t 0 = t.val % 8 ∧ win0_5.index t 1 = 0)
    ∧ (win0_6.index t 0 = 0 ∧ win0_6.index t 1 = t.val / 8 % 4)
    ∧ (win0_7.index t 0 = t.val / 32 ∧ win0_7.index t 1 = t.val / 8 % 4) :=
  (by decide +kernel : ∀ t : Fin grid0.N, _)

/-! ## The four vectors as the region finds them: laid out as a column or a row -/

theorem V_ein (c : Dev nD) : (V m c main_v0 : S4096x1.Idx → EReal)
    = shapeCast S4096x1 (m ((c : Thread nD τ).loc main_arg5)) shapeCasts_S4096_S4096x1 := by
  dsimp only [V, hostOps0]; after_results; rfl
theorem V_eout (c : Dev nD) : (V m c main_v1 : S1x4096.Idx → EReal)
    = shapeCast S1x4096 (m ((c : Thread nD τ).loc main_arg6)) shapeCasts_S4096_S1x4096 := by
  dsimp only [V, hostOps0]; after_results; rfl
theorem V_bmu (c : Dev nD) : (V m c main_v2 : S1x4096.Idx → EReal)
    = shapeCast S1x4096 (m ((c : Thread nD τ).loc main_arg3)) shapeCasts_S4096_S1x4096 := by
  dsimp only [V, hostOps0]; after_results; rfl
theorem V_bsig (c : Dev nD) : (V m c main_v3 : S1x4096.Idx → EReal)
    = shapeCast S1x4096 (m ((c : Thread nD τ).loc main_arg4)) shapeCasts_S4096_S1x4096 := by
  dsimp only [V, hostOps0]; after_results; rfl

/-- Entry `(0, n)` of a vector laid out as a row is its entry `n`. -/
theorem row_entry (v : S4096.Idx → EReal) (j : S1x4096.Idx) (n : ℕ) (h0 : (j 0).val = 0) (h1 : (j 1).val = n) :
    shapeCast S1x4096 v shapeCasts_S4096_S1x4096 j = at1 v n := by
  have hn : n < 4096 := h1 ▸ (j 1).isLt
  refine (shapeCast_apply v shapeCasts_S4096_S1x4096 j (ix1 ⟨n, hn⟩) ?_).trans (at1_ix1 v ⟨n, hn⟩).symm
  rw [Shape.rowMajor_val_one, Shape.rowMajor_val_two]
  show n = (j 0).val * 4096 + (j 1).val
  omega

/-- Entry `(n, 0)` of a vector laid out as a column is its entry `n`. -/
theorem col_entry (v : S4096.Idx → EReal) (j : S4096x1.Idx) (n : ℕ) (h0 : (j 0).val = n) (h1 : (j 1).val = 0) :
    shapeCast S4096x1 v shapeCasts_S4096_S4096x1 j = at1 v n := by
  have hn : n < 4096 := h0 ▸ (j 0).isLt
  refine (shapeCast_apply v shapeCasts_S4096_S4096x1 j (ix1 ⟨n, hn⟩) ?_).trans (at1_ix1 v ⟨n, hn⟩).symm
  rw [Shape.rowMajor_val_one, Shape.rowMajor_val_two]
  show n = (j 0).val * 1 + (j 1).val
  omega

/-! ## Each block's entries in the arguments -/

theorem x_entry (c : Dev nD) (t : Fin cfg0.N) (p : Fin 1024) (k : Fin 512) :
    (iblk m c 0 t : Vec Ideal S1024x512 .f32) (ix2 p k)
      = at2 (aX m c) (1024 * (t.val / 32) + p.val) (512 * (t.val % 8) + k.val) := by
  have hi := (idx_facts t).1
  unfold iblk
  rw [View.read_apply]
  show V m c main_arg0 _ = _
  rw [V_main_arg0]
  refine (at2_eq (aX m c) _ _ _ ?_ ?_).symm
  · show 1024 * (t.val / 32) + p.val = win0_0.index t 0 * 1024 + 1 * p.val
    rw [hi.1]; omega
  · show 512 * (t.val % 8) + k.val = win0_0.index t 1 * 512 + 1 * k.val
    rw [hi.2]; omega

theorem wmu_entry (c : Dev nD) (t : Fin cfg0.N) (k : Fin 512) (q : Fin 1024) :
    (iblk m c 1 t : Vec Ideal S512x1024 .f32) (ix2 k q)
      = at2 (aWmu m c) (512 * (t.val % 8) + k.val) (1024 * (t.val / 8 % 4) + q.val) := by
  have hi := (idx_facts t).2.1
  unfold iblk
  rw [View.read_apply]
  show V m c main_arg1 _ = _
  rw [V_main_arg1]
  refine (at2_eq (aWmu m c) _ _ _ ?_ ?_).symm
  · show 512 * (t.val % 8) + k.val = win0_1.index t 0 * 512 + 1 * k.val
    rw [hi.1]; omega
  · show 1024 * (t.val / 8 % 4) + q.val = win0_1.index t 1 * 1024 + 1 * q.val
    rw [hi.2]; omega

theorem wsig_entry (c : Dev nD) (t : Fin cfg0.N) (k : Fin 512) (q : Fin 1024) :
    (iblk m c 2 t : Vec Ideal S512x1024 .f32) (ix2 k q)
      = at2 (aWsig m c) (512 * (t.val % 8) + k.val) (1024 * (t.val / 8 % 4) + q.val) := by
  have hi := (idx_facts t).2.2.1
  unfold iblk
  rw [View.read_apply]
  show V m c main_arg2 _ = _
  rw [V_main_arg2]
  refine (at2_eq (aWsig m c) _ _ _ ?_ ?_).symm
  · show 512 * (t.val % 8) + k.val = win0_2.index t 0 * 512 + 1 * k.val
    rw [hi.1]; omega
  · show 1024 * (t.val / 8 % 4) + q.val = win0_2.index t 1 * 1024 + 1 * q.val
    rw [hi.2]; omega

theorem bmu_entry (c : Dev nD) (t : Fin cfg0.N) (q : Fin 1024) :
    (iblk m c 3 t : Vec Ideal S1x1024 .f32) (ix2 0 q) = at1 (aBmu m c) (1024 * (t.val / 8 % 4) + q.val) := by
  have hi := (idx_facts t).2.2.2.1
  unfold iblk
  rw [View.read_apply]
  show V m c main_v2 _ = _
  rw [V_bmu]
  refine row_entry (aBmu m c) _ _ ?_ ?_
  · show win0_3.index t 0 * 1 + 1 * 0 = 0
    rw [hi.1]
  · show win0_3.index t 1 * 1024 + 1 * q.val = _
    rw [hi.2]; omega

theorem bsig_entry (c : Dev nD) (t : Fin cfg0.N) (q : Fin 1024) :
    (iblk m c 4 t : Vec Ideal S1x1024 .f32) (ix2 0 q) = at1 (aBsig m c) (1024 * (t.val / 8 % 4) + q.val) := by
  have hi := (idx_facts t).2.2.2.2.1
  unfold iblk
  rw [View.read_apply]
  show V m c main_v3 _ = _
  rw [V_bsig]
  refine row_entry (aBsig m c) _ _ ?_ ?_
  · show win0_4.index t 0 * 1 + 1 * 0 = 0
    rw [hi.1]
  · show win0_4.index t 1 * 1024 + 1 * q.val = _
    rw [hi.2]; omega

theorem ein_entry (c : Dev nD) (t : Fin cfg0.N) (k : Fin 512) :
    (iblk m c 5 t : Vec Ideal S512x1 .f32) (ix2 k 0) = at1 (aEin m c) (512 * (t.val % 8) + k.val) := by
  have hi := (idx_facts t).2.2.2.2.2.1
  unfold iblk
  rw [View.read_apply]
  show V m c main_v0 _ = _
  rw [V_ein]
  refine col_entry (aEin m c) _ _ ?_ ?_
  · show win0_5.index t 0 * 512 + 1 * k.val = _
    rw [hi.1]; omega
  · show win0_5.index t 1 * 1 + 1 * 0 = 0
    rw [hi.2]

theorem eout_entry (c : Dev nD) (t : Fin cfg0.N) (q : Fin 1024) :
    (iblk m c 6 t : Vec Ideal S1x1024 .f32) (ix2 0 q) = at1 (aEout m c) (1024 * (t.val / 8 % 4) + q.val) := by
  have hi := (idx_facts t).2.2.2.2.2.2.1
  unfold iblk
  rw [View.read_apply]
  show V m c main_v1 _ = _
  rw [V_eout]
  refine row_entry (aEout m c) _ _ ?_ ?_
  · show win0_6.index t 0 * 1 + 1 * 0 = 0
    rw [hi.1]
  · show win0_6.index t 1 * 1024 + 1 * q.val = _
    rw [hi.2]; omega

end Cert.KernelIdeal.Blocks

end
-- ==== Proof.Acc.lean ====
/-
  The running block is the contraction so far.

  Write `i₀ = 1024 (t / 32)`, `j₀ = 1024 (t / 8 % 4)` for the corner of the result block that step `t` works on.  The
  eight steps `t` with the same `t / 8` work on the same block, at contraction blocks `t % 8 = 0, …, 7`.  After step `t`
  the scratch holds, at `(p, q)`, the contraction of row `i₀ + p` of `x` with column `j₀ + q` of the noisy weight over
  the contraction blocks `0, …, t % 8`: the first of the eight steps starts from zero and adds block 0, each later step
  adds its block to what the step before left (same block of the result, one contraction block further).  At the last
  of the eight the sum is over all 4096 indices, and the output block is that plus the noisy bias, cut off below at zero.
-/
import proofs.«168817_j55422257988117_1_alg».proof.Proof.Pieces
import proofs.«168817_j55422257988117_1_alg».proof.Proof.Payload
import proofs.«168817_j55422257988117_1_alg».proof.Proof.Blocks

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.NoisyDense Cert.KernelIdeal.Blocks

variable (m : (ℓ : Loc nD τ sig) → Buf (Elt Ideal) ℓ)

/-- The scratch after step `n`: the contraction over the contraction blocks `0, …, n % 8`, entry by entry of the
    result block the step works on. -/
def accAfter (c : Dev nD) (n : ℕ) : Vec Ideal S1024x1024 .f32 := fun y =>
  part (aX m c) (aWmu m c) (aWsig m c) (aEin m c) (aEout m c) (1024 * (n / 32) + (y 0).val) (1024 * (n / 8 % 4) + (y 1).val) (n % 8 + 1)

/-- One step at an entry, in the arguments: what the scratch held plus the 512 terms of the step's contraction block. -/
theorem step_at (c : Dev nD) (t : Fin cfg0.N) (acc : Vec Ideal S1024x1024 .f32) (p q : Fin 1024) :
    (k0_pay3 (F := Ideal) (iblk m c 5 t) (iblk m c 6 t) (iblk m c 1 t) (iblk m c 2 t) (iblk m c 0 t) acc) (ix2 p q)
      = acc (ix2 p q) + ∑ kk : Fin 512, term (aX m c) (aWmu m c) (aWsig m c) (aEin m c) (aEout m c)
          (1024 * (t.val / 32) + p.val) (1024 * (t.val / 8 % 4) + q.val) (512 * (t.val % 8) + kk.val) := by
  refine (Pay.pay3_at (iblk m c 5 t) (iblk m c 6 t) (iblk m c 1 t) (iblk m c 2 t) (iblk m c 0 t) acc p q).trans ?_
  refine congrArg (acc (ix2 p q) + ·) (Finset.sum_congr rfl fun kk _ => ?_)
  unfold term wgt
  rw [x_entry, wmu_entry, wsig_entry, ein_entry, eout_entry]

/-- The first of a block's eight steps: from zero, the contraction over block 0. -/
theorem first_eq (c : Dev nD) (t : Fin cfg0.N) (h0 : t.val % 8 = 0) :
    (k0_pay3 (F := Ideal) (iblk m c 5 t) (iblk m c 6 t) (iblk m c 1 t) (iblk m c 2 t) (iblk m c 0 t) (k0_pay1 (F := Ideal))) = accAfter m c t.val := by
  funext y
  obtain ⟨p, q, rfl⟩ : ∃ (p q : Fin 1024), y = ix2 p q := ⟨y 0, y 1, eq_ix2 y⟩
  refine (step_at m c t _ p q).trans ?_
  rw [Pay.pay1_at]
  show _ = part (aX m c) (aWmu m c) (aWsig m c) (aEin m c) (aEout m c) (1024 * (t.val / 32) + p.val) (1024 * (t.val / 8 % 4) + q.val) (t.val % 8 + 1)
  rw [h0, part_succ, part_zero]

/-- A later step: one more contraction block onto what the step before left. -/
theorem next_eq (c : Dev nD) (t : Fin cfg0.N) (h0 : ¬t.val % 8 = 0) :
    (k0_pay3 (F := Ideal) (iblk m c 5 t) (iblk m c 6 t) (iblk m c 1 t) (iblk m c 2 t) (iblk m c 0 t) (accAfter m c (t.val - 1))) = accAfter m c t.val := by
  funext y
  obtain ⟨p, q, rfl⟩ : ∃ (p q : Fin 1024), y = ix2 p q := ⟨y 0, y 1, eq_ix2 y⟩
  refine (step_at m c t _ p q).trans ?_
  have e1 : (t.val - 1) / 32 = t.val / 32 := by omega
  have e2 : (t.val - 1) / 8 % 4 = t.val / 8 % 4 := by omega
  have e3 : (t.val - 1) % 8 + 1 = t.val % 8 := by omega
  show part (aX m c) (aWmu m c) (aWsig m c) (aEin m c) (aEout m c) (1024 * ((t.val - 1) / 32) + p.val) (1024 * ((t.val - 1) / 8 % 4) + q.val) ((t.val - 1) % 8 + 1) + _
    = part (aX m c) (aWmu m c) (aWsig m c) (aEin m c) (aEout m c) (1024 * (t.val / 32) + p.val) (1024 * (t.val / 8 % 4) + q.val) (t.val % 8 + 1)
  rw [e1, e2, e3, part_succ]

/-- THE INVARIANT: after every step the scratch is the contraction so far — by induction on the step, each step by
    its case (first of eight, middle, last of eight). -/
theorem scratch_eq (c : Dev nD) : ∀ (n : ℕ) (hn : n < cfg0.N), (outsAt0 m c n hn).2 = accAfter m c n := by
  intro n
  induction n using Nat.strong_induction_on with
  | _ n ih =>
    intro hn
    have hN : n < 128 := lt_of_lt_of_eq hn (show cfg0.N = 128 from N_0)
    by_cases h0 : n % 8 = 0
    · have h1 : ¬n % 8 = 7 := by omega
      rw [outsAt0_A m c ⟨n, hn⟩ h0 h1]
      dsimp only
      exact (Pieces.scratch_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩)).trans (first_eq m c ⟨n, hn⟩ h0)
    · have ihp : (outsAt0 m c (n - 1) (Nat.lt_of_le_of_lt (Nat.sub_le _ _) hn)).2 = accAfter m c (n - 1) := ih (n - 1) (by omega) _
      by_cases h1 : n % 8 = 7
      · rw [outsAt0_C m c ⟨n, hn⟩ h0 h1]
        dsimp only
        rw [ihp]
        exact (Pieces.scratch_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (accAfter m c (n - 1))).trans (next_eq m c ⟨n, hn⟩ h0)
      · rw [outsAt0_B m c ⟨n, hn⟩ h0 h1]
        dsimp only
        rw [ihp]
        exact (Pieces.scratch_mid (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (accAfter m c (n - 1))).trans (next_eq m c ⟨n, hn⟩ h0)

/-- The output block at the last of a block's eight steps: the whole contraction plus the noisy bias, cut off below at
    zero, entry by entry. -/
theorem out_entry (c : Dev nD) (t : Fin cfg0.N) (h0 : ¬t.val % 8 = 0) (h1 : t.val % 8 = 7) (p q : Fin 1024) :
    (outsAt0 m c t.val t.isLt).1 (ix2 p q)
      = max (part (aX m c) (aWmu m c) (aWsig m c) (aEin m c) (aEout m c) (1024 * (t.val / 32) + p.val) (1024 * (t.val / 8 % 4) + q.val) 8
          + bias (aBmu m c) (aBsig m c) (aEout m c) (1024 * (t.val / 8 % 4) + q.val)) 0 := by
  rw [outsAt0_C m c t h0 h1]
  dsimp only
  rw [scratch_eq m c (t.val - 1) _]
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (accAfter m c (t.val - 1))) (ix2 p q)).trans ?_
  refine (Pay.pay4_at (iblk m c 6 t) (iblk m c 3 t) (iblk m c 4 t) (k0_pay3 (F := Ideal) (iblk m c 5 t) (iblk m c 6 t) (iblk m c 1 t) (iblk m c 2 t) (iblk m c 0 t) (accAfter m c (t.val - 1))) p q).trans ?_
  rw [next_eq m c t h0, bmu_entry, bsig_entry, eout_entry]
  show max (part (aX m c) (aWmu m c) (aWsig m c) (aEin m c) (aEout m c) (1024 * (t.val / 32) + p.val) (1024 * (t.val / 8 % 4) + q.val) (t.val % 8 + 1) + _) 0 = _
  rw [h1]
  rfl

end Cert.KernelIdeal.Acc

end
-- ==== Proof.Final.lean ====
/-
  The result array after the run.

  The output block is written back at the last of each result block's eight steps, and by then it holds the layer's
  function `G` at the block's entries (the contraction is complete and the bias and the cut-off have been applied).  The
  sixteen result blocks, one per pair (row block, column block), tile the 4096 × 4096 array: entry `(i, j)` lies in
  the block of the step `32 (i / 1024) + 8 (j / 1024) + 7`.  So the array ends holding `G` of the seven arguments.
-/
import proofs.«168817_j55422257988117_1_alg».proof.Proof.Gen.KernelIdeal.Value
import proofs.«168817_j55422257988117_1_alg».proof.Proof.Acc

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.NoisyDense Cert.KernelIdeal.Blocks Cert.KernelIdeal.Acc

variable (m : (ℓ : Loc nD τ sig) → Buf (Elt Ideal) ℓ) (ρ : Dev nD → PrngReg)

/-- What the result array ends holding: the layer's function of the seven arguments. -/
abbrev result (c : Dev nD) : Buf (Elt Ideal) ((c : Thread nD τ).loc main_v4) := G (aX m c) (aWmu m c) (aWsig m c) (aBmu m c) (aBsig m c) (aEin m c) (aEout m c)

/-- What a write-back writes is the block of `G` it is written to. -/
theorem flushed_eq (c : Dev nD) (t : Fin cfg0.N) (hf : (cfg0.win 7).flush t = true) :
    (dats m 0 c).flushed 7 t = ((cfg0.win 7).blk t).view.read (Elt Ideal) (result m c) := by
  have h1 : t.val % 8 = 7 := (flush0_7 t).mp hf
  have h0 : ¬t.val % 8 = 0 := by omega
  have hi := (idx_facts t).2.2.2.2.2.2.2
  rw [Value.flushed7]
  funext j
  obtain ⟨p, q, rfl⟩ : ∃ (p q : Fin 1024), j = ix2 p q := ⟨j 0, j 1, eq_ix2 j⟩
  show (outsAt0 m c t.val t.isLt).1 (ix2 p q) = result m c (((cfg0.win 7).blk t).view.emb (ix2 p q))
  rw [out_entry m c t h0 h1 p q]
  have e0 : ((((cfg0.win 7).blk t).view.emb (ix2 p q)) 0).val = 1024 * (t.val / 32) + p.val := by
    show win0_7.index t 0 * 1024 + 1 * p.val = _
    rw [hi.1]; omega
  have e1 : ((((cfg0.win 7).blk t).view.emb (ix2 p q)) 1).val = 1024 * (t.val / 8 % 4) + q.val := by
    show win0_7.index t 1 * 1024 + 1 * q.val = _
    rw [hi.2]; omega
  show _ = max (part (aX m c) (aWmu m c) (aWsig m c) (aEin m c) (aEout m c)
      ((((cfg0.win 7).blk t).view.emb (ix2 p q)) 0).val ((((cfg0.win 7).blk t).view.emb (ix2 p q)) 1).val 8
    + bias (aBmu m c) (aBsig m c) (aEout m c) ((((cfg0.win 7).blk t).view.emb (ix2 p q)) 1).val) 0
  rw [e0, e1]

/-- An entry of the array is in step `t`'s block iff each coordinate is in the block's range on its axis. -/
theorem mem_blk (t : Fin cfg0.N) (i : S4096x4096.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v4).slice (win0_7.rect t)).set ↔ _
  rw [View.set_slice_whole, Rect.mem_set_unit]
  exact Iff.rfl

/-- Every entry is in the block of a step that writes back. -/
theorem cover (i : S4096x4096.Idx) :
    ∃ t : Fin cfg0.N, (cfg0.win 7).flush t = true ∧ i ∈ ((cfg0.win 7).blk t).view.set := by
  have b0 : (i 0).val < 4096 := (i 0).isLt
  have b1 : (i 1).val < 4096 := (i 1).isLt
  have hN : cfg0.N = 128 := N_0
  have hn : 32 * ((i 0).val / 1024) + 8 * ((i 1).val / 1024) + 7 < cfg0.N := by rw [hN]; omega
  refine ⟨⟨32 * ((i 0).val / 1024) + 8 * ((i 1).val / 1024) + 7, hn⟩, (flush0_7 _).mpr (by show (32 * ((i 0).val / 1024) + 8 * ((i 1).val / 1024) + 7) % 8 = 7; omega), ?_⟩
  have hi := (idx_facts ⟨32 * ((i 0).val / 1024) + 8 * ((i 1).val / 1024) + 7, hn⟩).2.2.2.2.2.2.2
  rw [mem_blk]
  intro a
  match a with
  | ⟨0, _⟩ =>
    show win0_7.index ⟨32 * ((i 0).val / 1024) + 8 * ((i 1).val / 1024) + 7, hn⟩ 0 * 1024 ≤ (i 0).val
      ∧ (i 0).val < win0_7.index ⟨32 * ((i 0).val / 1024) + 8 * ((i 1).val / 1024) + 7, hn⟩ 0 * 1024 + 1024
    rw [hi.1]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_7.index ⟨32 * ((i 0).val / 1024) + 8 * ((i 1).val / 1024) + 7, hn⟩ 1 * 1024 ≤ (i 1).val
      ∧ (i 1).val < win0_7.index ⟨32 * ((i 0).val / 1024) + 8 * ((i 1).val / 1024) + 7, hn⟩ 1 * 1024 + 1024
    rw [hi.2]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- The result array ends holding `G` of the arguments. -/
theorem final (c : Dev nD) : (dats m 0 c).arrAt 7 cfg0.N = result m c :=
  (dats m 0 c).arrAt_eq_of_cover 7 (result m c) (flushed_eq m c) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.lean ====
/-
  A noisy dense layer computed block by block is the layer.

  Both programs take `x`, `w_mu`, `w_sigma` (4096 × 4096) and `b_mu`, `b_sigma`, `eps_in`, `eps_out` (4096) and return
  `max (x · w + b) 0` with `w = w_mu + w_sigma · (eps_in ⊗ eps_out)` and `b = b_mu + b_sigma · eps_out`.  The reference
  forms `w` and `b` whole, takes one matrix product and applies the cut-off.  The kernel walks a 4 × 4 × 8 grid: for
  each 1024 × 1024 block of the result it forms the 512 × 1024 blocks of `w` on the fly, accumulates the eight partial
  products of a 1024 × 512 block of `x` with them in a scratch block that it zeroes at the first of the eight steps,
  and at the last adds the bias block, cuts off at zero and writes the block out.

  Over the extended reals the two are equal entry by entry: each entry of the result is the same 4096 products added
  up, by the kernel in eight consecutive runs of 512 onto a zero start, and addition is associative with unit zero;
  the products themselves, the bias and the cut-off are spelt with the same operations in the same order on both
  sides, and a change of float format is the identity.  No entry needs to be finite for this.

  The modules: `Spec` states the result as one function `G` of the arguments and the arithmetic of adding the
  contraction up in blocks; `RefSpec` reads the reference's last stage as `G`; `Payload` reads the body's arithmetic at
  an entry of a block, `Pieces` what each kind of step (first, middle, last of eight) leaves in the scratch and in the
  output block, `Blocks` where a step's blocks sit in the arguments; `Acc` is the induction over the steps (the scratch
  is the contraction so far) and `Final` the result array (the sixteen written-back blocks tile it).
-/
import proofs.«168817_j55422257988117_1_alg».proof.Defs
import proofs.«168817_j55422257988117_1_alg».proof.Proof.Gen.Kernel
import proofs.«168817_j55422257988117_1_alg».proof.Proof.Gen.Kernel.Skeleton
import proofs.«168817_j55422257988117_1_alg».proof.Proof.Gen.Kernel.Launch
import proofs.«168817_j55422257988117_1_alg».proof.Proof.Gen.Kernel.Points
import proofs.«168817_j55422257988117_1_alg».proof.Proof.Gen.Kernel.Frame
import proofs.«168817_j55422257988117_1_alg».proof.Proof.Gen.KernelIdeal
import proofs.«168817_j55422257988117_1_alg».proof.Proof.Gen.KernelIdeal.Skeleton
import proofs.«168817_j55422257988117_1_alg».proof.Proof.Gen.KernelIdeal.Launch
import proofs.«168817_j55422257988117_1_alg».proof.Proof.Gen.KernelIdeal.Points
import proofs.«168817_j55422257988117_1_alg».proof.Proof.Gen.KernelIdeal.Frame
import proofs.«168817_j55422257988117_1_alg».proof.Proof.Gen.ReferenceIdeal
import proofs.«168817_j55422257988117_1_alg».proof.Proof.Gen.Pre_finite_inputs
import proofs.«168817_j55422257988117_1_alg».proof.Proof.Gen.KernelIdeal.Value
import proofs.«168817_j55422257988117_1_alg».proof.Proof.Gen.ReferenceIdeal.Run
import proofs.«168817_j55422257988117_1_alg».proof.Proof.Gen.ReferenceIdeal.Read
import proofs.«168817_j55422257988117_1_alg».proof.Proof.RefSpec
import proofs.«168817_j55422257988117_1_alg».proof.Proof.Final
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of whole-array operations: it runs to the end, and its arguments are among the
    buffers it never writes. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel ends with `G` of its arguments in its result array, the reference with `G` of its own; the arguments
    agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefSpec.stage_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
